-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16x4096x256 .f32) (main_arg1 : FVec F S256x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S16x4096x256 : Shape := ⟨3, ![16, 4096, 256]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S16x4096x128 : Shape := ⟨3, ![16, 4096, 128]⟩
abbrev S1x4096x256 : Shape := ⟨3, ![1, 4096, 256]⟩
abbrev S1x4096x128 : Shape := ⟨3, ![1, 4096, 128]⟩
abbrev S4096x256 : Shape := ⟨2, ![4096, 256]⟩
abbrev S4096x128 : Shape := ⟨2, ![4096, 128]⟩

abbrev nBuf : Space → Nat
  | .hbm => 14
  | .vmem => 10
  | .smem => 0
  | _ => 0

abbrev bufTy : (tb : Table) → Fin (tcTables nBuf tb) → BufTy
  | .hbm, ⟨0, _⟩ => ⟨S16x4096x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S256x128, .bf16⟩
  | .hbm, ⟨11, _⟩ => ⟨S128x128, .bf16⟩
  | .hbm, ⟨12, _⟩ => ⟨S128x128, .bf16⟩
  | .hbm, ⟨13, _⟩ => ⟨S16x4096x128, .f32⟩
  | .local _ .vmem, ⟨0, _⟩ => ⟨S1x4096x256, .f32⟩
  | .local _ .vmem, ⟨1, _⟩ => ⟨S1x4096x256, .f32⟩
  | .local _ .vmem, ⟨2, _⟩ => ⟨S256x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S1x4096x128, .f32⟩
  | .local _ .vmem, ⟨9, _⟩ => ⟨S1x4096x128, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4096x128_S128 : S4096x128.Reduces [0] S128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x4096x256.size a
  hwx0_0 : ∀ i : grid0.Coords, EltTy.bits .f32 = 32 ∨ (Rect.block (s := S16x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x128.size a ≤ S16x4096x128.size a
  hwx0_7 : ∀ i : grid0.Coords, EltTy.bits .f32 = 32 ∨ (Rect.block (s := S16x4096x128) S1x4096x128.size (cc0_transform_7 i) (hinb0_7 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S256x128 : Shape := ⟨2, ![256, 128]⟩
abbrev S128 : Shape := ⟨1, ![128]⟩
abbrev S128x128 : Shape := ⟨2, ![128, 128]⟩
abbrev S16x4096x128 : Shape := ⟨3, ![16, 4096, 128]⟩
abbrev S1x1x128 : Shape := ⟨3, ![1, 1, 128]⟩
abbrev S_ : Shape := ⟨0, ![]⟩
abbrev S16x128 : Shape := ⟨2, ![16, 128]⟩
abbrev S16x1x128 : Shape := ⟨3, ![16, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x4096x128, .f32⟩
  | .hbm, ⟨8, _⟩ => ⟨S1x1x128, .f32⟩
  | .hbm, ⟨9, _⟩ => ⟨S16x4096x128, .f32⟩
  | .hbm, ⟨10, _⟩ => ⟨S16x4096x128, .f32⟩
  | .hbm, ⟨11, _⟩ => ⟨S16x4096x128, .f32⟩
  | .hbm, ⟨12, _⟩ => ⟨S1x1x128, .f32⟩
  | .hbm, ⟨13, _⟩ => ⟨S16x4096x128, .f32⟩
  | .hbm, ⟨14, _⟩ => ⟨S16x4096x128, .f32⟩
  | .hbm, ⟨15, _⟩ => ⟨S_, .f32⟩
  | .hbm, ⟨16, _⟩ => ⟨S16x4096x128, .f32⟩
  | .hbm, ⟨17, _⟩ => ⟨S16x4096x128, .f32⟩
  | .hbm, ⟨18, _⟩ => ⟨S16x4096x128, .f32⟩
  | .hbm, ⟨19, _⟩ => ⟨S1x1x128, .f32⟩
  | .hbm, ⟨20, _⟩ => ⟨S16x4096x128, .f32⟩
  | .hbm, ⟨21, _⟩ => ⟨S16x4096x128, .f32⟩
  | .hbm, ⟨22, _⟩ => ⟨S_, .f32⟩
  | .hbm, ⟨23, _⟩ => ⟨S16x128, .f32⟩
  | .hbm, ⟨24, _⟩ => ⟨S16x1x128, .f32⟩
  | .hbm, ⟨25, _⟩ => ⟨S16x4096x128, .f32⟩
  | .hbm, ⟨26, _⟩ => ⟨S16x4096x128, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x4096x128_0_1_2 : S1x1x128.BroadcastsInDim S16x4096x128 (![0, 1, 2] : Fin 3 → Fin S16x4096x128.rank)
  bcast_S_S16x4096x128 : S_.BroadcastsInDim S16x4096x128 (![] : Fin 0 → Fin S16x4096x128.rank)
  reducesTo_S16x4096x128_S16x128_d1 : S16x4096x128.ReducesTo [1] S16x128
  h_S_ : 0 < S_.numel
  bcast_S16x128_S16x1x128_0_2 : S16x128.BroadcastsInDim S16x1x128 (![0, 2] : Fin 2 → Fin S16x1x128.rank)
  bcast_S16x1x128_S16x4096x128_0_1_2 : S16x1x128.BroadcastsInDim S16x4096x128 (![0, 1, 2] : Fin 3 → Fin S16x4096x128.rank)
  dot_S16x4096x256_S256x128_S16x4096x128_2_0_01_1_n_n_wf : DotDims.WF S16x4096x256 S256x128 S16x4096x128 [2] [0] [0, 1] [1] [] []
  dot_S16x4096x128_S128x128_S16x4096x128_2_0_01_1_n_n_wf : DotDims.WF S16x4096x128 S128x128 S16x4096x128 [2] [0] [0, 1] [1] [] []

variable [Facts₀]

def dot_S16x4096x256_S256x128_S16x4096x128_2_0_01_1_n_n : DotDims S16x4096x256 S256x128 S16x4096x128 where
  lhsContracting := [2]
  rhsContracting := [0]
  lhsNonContracting := [0, 1]
  rhsNonContracting := [1]
  lhsBatch := []
  rhsBatch := []
  wf := dot_S16x4096x256_S256x128_S16x4096x128_2_0_01_1_n_n_wf
def dot_S16x4096x128_S128x128_S16x4096x128_2_0_01_1_n_n : DotDims S16x4096x128 S128x128 S16x4096x128 where
  lhsContracting := [2]
  rhsContracting := [0]
  lhsNonContracting := [0, 1]
  rhsNonContracting := [1]
  lhsBatch := []
  rhsBatch := []
  wf := dot_S16x4096x128_S128x128_S16x4096x128_2_0_01_1_n_n_wf

class Facts : Prop extends Facts₀ where

variable [Facts]
-- ==== Proof.Spec.lean ====
/-
  The function both programs compute, written once over plain coordinate functions.

  A message-passing layer with a leave-one-out sum.  For one batch entry, with rows `n` and
  features `e`:

    proj n e = Σ_d x n d · wp d e + bp e
    hid  n e = max (Σ_d proj n d · w1 d e + b1 e) z          (z is the value of the zero word)
    msg  n e = Σ_d hid n d · w2 d e + b2 e
    out  n e = (Σ_n' msg n' e) − msg n e

  Every sum is a finite sum over the extended reals, where addition is commutative and
  associative, so the order in which either program adds its terms does not matter; no other
  law is needed, because both programs apply the same operations in the same arrangement.
-/
import Idealize.ShloMosaic.PureOps.Ideal
import Idealize.ShloMosaic.Lib.ValueIdx

noncomputable section

namespace Cert.LeaveOneOut

open Idealize.ShloMosaic Idealize.ShloMosaic.ValueIdx

/-- One affine layer on rows: `y n e = Σ_k x n k · w k e + b e`. -/
def affine {N K E : Nat} (x : Fin N → Fin K → EReal) (w : Fin K → Fin E → EReal) (b : Fin E → EReal)
    (n : Fin N) (e : Fin E) : EReal :=
  ∑ k : Fin K, x n k * w k e + b e

/-- The message of every row: projection, one hidden layer clamped below at `z`, output layer. -/
def msg (z : EReal) (x : Fin 4096 → Fin 256 → EReal) (wp : Fin 256 → Fin 128 → EReal) (bp : Fin 128 → EReal)
    (w1 : Fin 128 → Fin 128 → EReal) (b1 : Fin 128 → EReal) (w2 : Fin 128 → Fin 128 → EReal) (b2 : Fin 128 → EReal) :
    Fin 4096 → Fin 128 → EReal :=
  affine (fun n k => max (affine (affine x wp bp) w1 b1 n k) z) w2 b2

/-- Row `n`'s result: the sum of all rows' messages with its own message taken off. -/
def others (z : EReal) (x : Fin 4096 → Fin 256 → EReal) (wp : Fin 256 → Fin 128 → EReal) (bp : Fin 128 → EReal)
    (w1 : Fin 128 → Fin 128 → EReal) (b1 : Fin 128 → EReal) (w2 : Fin 128 → Fin 128 → EReal) (b2 : Fin 128 → EReal)
    (n : Fin 4096) (e : Fin 128) : EReal :=
  (∑ n' : Fin 4096, msg z x wp bp w1 b1 w2 b2 n' e) - msg z x wp bp w1 b1 w2 b2 n e

/-- The value of the zero word, kept as the word: both programs clamp at the same literal. -/
abbrev zeroWord : EReal := Ideal.ofBits .f32 0x00000000#32

/-- The whole result array from the seven argument arrays: batch entry `b`, row `n`, feature `e`. -/
def result (X : (⟨3, ![16, 4096, 256]⟩ : Shape).Idx → EReal) (Wp : (⟨2, ![256, 128]⟩ : Shape).Idx → EReal)
    (bp : (⟨1, ![128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (b : Fin 16) (n : Fin 4096) (e : Fin 128) : EReal :=
  others zeroWord (fun n k => X (ix3 b n k)) (fun k e => Wp (ix2 k e)) (fun e => bp (ix1 e))
    (fun k e => W1 (ix2 k e)) (fun e => b1 (ix1 e)) (fun k e => W2 (ix2 k e)) (fun e => b2 (ix1 e)) n e

/-- The result as an array over `[16, 4096, 128]`. -/
def resultArr (X : (⟨3, ![16, 4096, 256]⟩ : Shape).Idx → EReal) (Wp : (⟨2, ![256, 128]⟩ : Shape).Idx → EReal)
    (bp : (⟨1, ![128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨3, ![16, 4096, 128]⟩ : Shape).Idx → EReal :=
  fun i => result X Wp bp W1 b1 W2 b2 (i 0) (i 1) (i 2)

theorem resultArr_ix3 (X : (⟨3, ![16, 4096, 256]⟩ : Shape).Idx → EReal) (Wp : (⟨2, ![256, 128]⟩ : Shape).Idx → EReal)
    (bp : (⟨1, ![128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (b : Fin 16) (n : Fin 4096) (e : Fin 128) :
    resultArr X Wp bp W1 b1 W2 b2 (ix3 b n e) = result X Wp bp W1 b1 W2 b2 b n e := rfl

end Cert.LeaveOneOut

end
-- ==== Proof.RefIsSpec.lean ====
/-
  The reference, read one operation at a time, is the specification.

  Its three contractions are sums over the contracted coordinate of products of the two operands
  at (batch, row, k) and (k, feature); each bias is broadcast along batch and row; the clamp is a
  maximum with the broadcast zero word; the row sum starts from the zero word, which is 0, and
  adds the 4096 rows of one batch entry and feature; the last step subtracts the row's own message.
-/
import proofs.«101417_j31619549233246_1_alg».proof.Proof.Gen.ReferenceIdeal.Read
import proofs.«101417_j31619549233246_1_alg».proof.Proof.Spec

noncomputable section

namespace Cert.LeaveOneOut.Ref

open Cert.ReferenceIdeal Cert.ReferenceIdeal.Read Idealize.ShloMosaic Idealize.ShloMosaic.ValueIdx Cert.LeaveOneOut

variable (x0 : (⟨S16x4096x256, .f32⟩ : BufTy).Contents (Elt Ideal)) (x1 : (⟨S256x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-! ### The index functions of the read lemmas, at coordinates -/

theorem lidx0 (b : Fin 16) (n : Fin 4096) (e : Fin 128) (k : Fin 256) : lidx_main_v0 (ix3 b n e) k = ix3 b n k :=
  funext fun a => Fin.ext (by match a with | ⟨0, _⟩ => rfl | ⟨1, _⟩ => rfl | ⟨2, _⟩ => rfl)
theorem ridx0 (b : Fin 16) (n : Fin 4096) (e : Fin 128) (k : Fin 256) : ridx_main_v0 (ix3 b n e) k = ix2 k e :=
  funext fun a => Fin.ext (by match a with | ⟨0, _⟩ => rfl | ⟨1, _⟩ => rfl)
theorem lidx4 (b : Fin 16) (n : Fin 4096) (e : Fin 128) (k : Fin 128) : lidx_main_v4 (ix3 b n e) k = ix3 b n k :=
  funext fun a => Fin.ext (by match a with | ⟨0, _⟩ => rfl | ⟨1, _⟩ => rfl | ⟨2, _⟩ => rfl)
theorem ridx4 (b : Fin 16) (n : Fin 4096) (e : Fin 128) (k : Fin 128) : ridx_main_v4 (ix3 b n e) k = ix2 k e :=
  funext fun a => Fin.ext (by match a with | ⟨0, _⟩ => rfl | ⟨1, _⟩ => rfl)
theorem lidx9 (b : Fin 16) (n : Fin 4096) (e : Fin 128) (k : Fin 128) : lidx_main_v9 (ix3 b n e) k = ix3 b n k :=
  funext fun a => Fin.ext (by match a with | ⟨0, _⟩ => rfl | ⟨1, _⟩ => rfl | ⟨2, _⟩ => rfl)
theorem ridx9 (b : Fin 16) (n : Fin 4096) (e : Fin 128) (k : Fin 128) : ridx_main_v9 (ix3 b n e) k = ix2 k e :=
  funext fun a => Fin.ext (by match a with | ⟨0, _⟩ => rfl | ⟨1, _⟩ => rfl)
/-- A bias broadcast along batch and row reads the bias at the feature. -/
theorem bias_idx (b : Fin 16) (n : Fin 4096) (e : Fin 128) : idx_main_v1 (idx_main_v2 (ix3 b n e)) = ix1 e :=
  funext fun a => Fin.ext (by match a with | ⟨0, _⟩ => rfl)
theorem rows_idx (b : Fin 16) (n : Fin 4096) (e : Fin 128) (k : Fin 4096) :
    idx_main_v13 (idx_main_v14 (idx_main_v15 (ix3 b n e))) k = ix3 b k e :=
  funext fun a => Fin.ext (by match a with | ⟨0, _⟩ => rfl | ⟨1, _⟩ => rfl | ⟨2, _⟩ => rfl)

/-! ### The stages -/

/-- The projection. -/
theorem proj_at (b : Fin 16) (n : Fin 4096) (e : Fin 128) :
    val_main_v3 (F := Ideal) x0 x1 x2 (ix3 b n e)
      = affine (fun n k => x0 (ix3 b n k)) (fun k e => x1 (ix2 k e)) (fun e => x2 (ix1 e)) n e := by
  rw [val_main_v3_apply, val_main_v0_apply, val_main_v2_apply, val_main_v1_apply, bias_idx]
  simp only [lidx0, ridx0]
  rfl

/-- The hidden layer before the clamp. -/
theorem pre_at (b : Fin 16) (n : Fin 4096) (e : Fin 128) :
    val_main_v7 (F := Ideal) x0 x1 x2 x3 x4 (ix3 b n e)
      = affine (affine (fun n k => x0 (ix3 b n k)) (fun k e => x1 (ix2 k e)) (fun e => x2 (ix1 e)))
          (fun k e => x3 (ix2 k e)) (fun e => x4 (ix1 e)) n e := by
  rw [val_main_v7_apply, val_main_v4_apply, val_main_v6_apply, val_main_v5_apply]
  show (∑ k : Fin 128, _) + x4 (idx_main_v1 (idx_main_v2 (ix3 b n e))) = _
  rw [bias_idx]
  simp only [lidx4, ridx4, proj_at]
  rfl

/-- The hidden layer, clamped below at the zero word. -/
theorem hid_at (b : Fin 16) (n : Fin 4096) (e : Fin 128) :
    val_main_v8 (F := Ideal) x0 x1 x2 x3 x4 (ix3 b n e)
      = max (affine (affine (fun n k => x0 (ix3 b n k)) (fun k e => x1 (ix2 k e)) (fun e => x2 (ix1 e)))
          (fun k e => x3 (ix2 k e)) (fun e => x4 (ix1 e)) n e) zeroWord := by
  rw [val_main_v8_apply, val_main_call0_v0_apply, val_main_call0_cst_apply, pre_at]
  rfl

/-- The message. -/
theorem msg_at (b : Fin 16) (n : Fin 4096) (e : Fin 128) :
    val_main_v12 (F := Ideal) x0 x1 x2 x3 x4 x5 x6 (ix3 b n e)
      = msg zeroWord (fun n k => x0 (ix3 b n k)) (fun k e => x1 (ix2 k e)) (fun e => x2 (ix1 e))
          (fun k e => x3 (ix2 k e)) (fun e => x4 (ix1 e)) (fun k e => x5 (ix2 k e)) (fun e => x6 (ix1 e)) n e := by
  rw [val_main_v12_apply, val_main_v9_apply, val_main_v11_apply, val_main_v10_apply]
  show (∑ k : Fin 128, _) + x6 (idx_main_v1 (idx_main_v2 (ix3 b n e))) = _
  rw [bias_idx]
  simp only [lidx9, ridx9, hid_at]
  rfl

/-- The reference's result array is the specification's. -/
theorem result_eq : val_main_v16 (F := Ideal) x0 x1 x2 x3 x4 x5 x6 = resultArr x0 x1 x2 x3 x4 x5 x6 := by
  funext i
  obtain ⟨b, n, e, rfl⟩ : ∃ (b : Fin 16) (n : Fin 4096) (e : Fin 128), i = ix3 b n e := ⟨i 0, i 1, i 2, eq_ix3 i⟩
  rw [resultArr_ix3, val_main_v16_apply, val_main_v15_apply, val_main_v14_apply, val_main_v13_apply, val_main_cst_apply, msg_at]
  simp only [rows_idx, msg_at]
  show (Ideal.ofBits .f32 0x00000000#32 + _) - _ = _
  rw [Ideal.ofBits_zero_f32, zero_add]
  rfl

end Cert.LeaveOneOut.Ref

end
-- ==== Proof.BodyIsSpec.lean ====
/-
  The kernel body's one stored value, read at an index, is the specification over the blocks it loads.

  The body works on one batch entry: a [1, 4096, 256] block of the input viewed as a [4096, 256]
  matrix, the three weight matrices and the three biases as [1, 128] rows.  Each of its three
  matrix products into a zero accumulator is, at (row, feature), the sum over the contracted
  coordinate of the products of the operands at (row, k) and (k, feature); a change of float
  format is the identity; a bias row is broadcast down the rows; the clamp is a maximum with the
  splat of the zero word; the column sum over the 4096 rows is broadcast back down the rows and the
  row's own message is subtracted from it.
-/
import proofs.«101417_j31619549233246_1_alg».proof.Proof.Gen.KernelIdeal.Skeleton
import proofs.«101417_j31619549233246_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.LeaveOneOut.Body

open Cert.KernelIdeal Cert.KernelIdeal.Gen Idealize.ShloMosaic Idealize.ShloMosaic.ValueIdx Cert.LeaveOneOut

/-! ### The two matrix products at an index -/

theorem lhsA_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhsA_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhsA_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhsA_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The [4096, 256] × [256, 128] product into zero, at (row, feature). -/
theorem matmulA_apply (l : FVec Ideal S4096x256 .bf16) (r : FVec Ideal S256x128 .bf16) (n : Fin 4096) (e : Fin 128) :
    matmul dot_S4096x256_S256x128_S4096x128_1_0_0_1_n_n none l r (constant (F := Ideal) S4096x128 .f32 0x00000000#32) (ix2 n e)
      = ∑ k : Fin 256, l (ix2 n k) * r (ix2 k e) := by
  simp only [matmul]
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 n e) ((contrEquiv1 dot_S4096x256_S256x128_S4096x128_1_0_0_1_n_n 256 rfl rfl).symm k) = ix2 n k := funext fun a => Fin.ext (by
    match a with
    | ⟨0, _⟩ => exact lhsA_0 _ _
    | ⟨1, _⟩ => exact (lhsA_1 _ _).trans hk)
  have er : dot_S4096x256_S256x128_S4096x128_1_0_0_1_n_n.rhsIdx (ix2 n e) ((contrEquiv1 dot_S4096x256_S256x128_S4096x128_1_0_0_1_n_n 256 rfl rfl).symm k) = ix2 k e := funext fun a => Fin.ext (by
    match a with
    | ⟨0, _⟩ => exact (rhsA_0 _ _).trans hk
    | ⟨1, _⟩ => exact rhsA_1 _ _)
  rw [el, er]

theorem lhsB_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsB_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsB_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsB_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The [4096, 128] × [128, 128] product into zero, at (row, feature). -/
theorem matmulB_apply (l : FVec Ideal S4096x128 .bf16) (r : FVec Ideal S128x128 .bf16) (n : Fin 4096) (e : Fin 128) :
    matmul dot_S4096x128_S128x128_S4096x128_1_0_0_1_n_n none l r (constant (F := Ideal) S4096x128 .f32 0x00000000#32) (ix2 n e)
      = ∑ k : Fin 128, l (ix2 n k) * r (ix2 k e) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 n e) ((contrEquiv1 dot_S4096x128_S128x128_S4096x128_1_0_0_1_n_n 128 rfl rfl).symm k) = ix2 n k := funext fun a => Fin.ext (by
    match a with
    | ⟨0, _⟩ => exact lhsB_0 _ _
    | ⟨1, _⟩ => exact (lhsB_1 _ _).trans hk)
  have er : dot_S4096x128_S128x128_S4096x128_1_0_0_1_n_n.rhsIdx (ix2 n e) ((contrEquiv1 dot_S4096x128_S128x128_S4096x128_1_0_0_1_n_n 128 rfl rfl).symm k) = ix2 k e := funext fun a => Fin.ext (by
    match a with
    | ⟨0, _⟩ => exact (rhsB_0 _ _).trans hk
    | ⟨1, _⟩ => exact rhsB_1 _ _)
  rw [el, er]

/-! ### The body's layers as matrices -/

/-- The projection of the block's rows: product with the projection weights, plus the bias row. -/
def projM (v : FVec Ideal S4096x256 .f32) (w : FVec Ideal S256x128 .bf16) (b : FVec Ideal S1x128 .f32) : FVec Ideal S4096x128 .f32 :=
  addf (matmul dot_S4096x256_S256x128_S4096x128_1_0_0_1_n_n none (truncf .bf16 v Facts₀.bitsLt_bf16_f32) w (constant S4096x128 .f32 0x00000000#32))
    (broadcastTo S4096x128 b Facts₀.broadcasts_S1x128_S4096x128)

/-- One square layer: product with a [128, 128] weight matrix, plus the bias row. -/
def layerM (v : FVec Ideal S4096x128 .f32) (w : FVec Ideal S128x128 .bf16) (b : FVec Ideal S1x128 .f32) : FVec Ideal S4096x128 .f32 :=
  addf (matmul dot_S4096x128_S128x128_S4096x128_1_0_0_1_n_n none (truncf .bf16 v Facts₀.bitsLt_bf16_f32) w (constant S4096x128 .f32 0x00000000#32))
    (broadcastTo S4096x128 b Facts₀.broadcasts_S1x128_S4096x128)

theorem projM_apply (v : FVec Ideal S4096x256 .f32) (w : FVec Ideal S256x128 .bf16) (b : FVec Ideal S1x128 .f32) (n : Fin 4096) (e : Fin 128) :
    projM v w b (ix2 n e) = affine (fun n k => v (ix2 n k)) (fun k e => w (ix2 k e)) (fun e => b (ix2 (0 : Fin 1) e)) n e := by
  unfold projM
  rw [addf_apply, matmulA_apply, broadcastTo_1b_ab_apply]
  rfl

theorem layerM_apply (v : FVec Ideal S4096x128 .f32) (w : FVec Ideal S128x128 .bf16) (b : FVec Ideal S1x128 .f32) (n : Fin 4096) (e : Fin 128) :
    layerM v w b (ix2 n e) = affine (fun n k => v (ix2 n k)) (fun k e => w (ix2 k e)) (fun e => b (ix2 (0 : Fin 1) e)) n e := by
  unfold layerM
  rw [addf_apply, matmulB_apply, broadcastTo_1b_ab_apply]
  rfl

/-- Every row's message, as the body computes it from its loaded blocks. -/
def msgM (x0 : Vec Ideal S1x4096x256 .f32) (x1 : Vec Ideal S256x128 .bf16) (x2 : Vec Ideal S1x128 .f32) (x3 : Vec Ideal S128x128 .bf16)
    (x4 : Vec Ideal S1x128 .f32) (x5 : Vec Ideal S128x128 .bf16) (x6 : Vec Ideal S1x128 .f32) : FVec Ideal S4096x128 .f32 :=
  layerM (maximumf (layerM (projM (shapeCast S4096x256 x0 Facts₀.shapeCasts_S1x4096x256_S4096x256) (shapeCast S256x128 x1 Facts₀.shapeCasts_S256x128_S256x128) (shapeCast S1x128 x2 Facts₀.shapeCasts_S1x128_S1x128))
      (shapeCast S128x128 x3 Facts₀.shapeCasts_S128x128_S128x128) (shapeCast S1x128 x4 Facts₀.shapeCasts_S1x128_S1x128))
      (broadcast S4096x128 (Scalar.ofBits .f32 0x00000000#32)))
    (shapeCast S128x128 x5 Facts₀.shapeCasts_S128x128_S128x128) (shapeCast S1x128 x6 Facts₀.shapeCasts_S1x128_S1x128)

theorem msgM_apply (x0 : Vec Ideal S1x4096x256 .f32) (x1 : Vec Ideal S256x128 .bf16) (x2 : Vec Ideal S1x128 .f32) (x3 : Vec Ideal S128x128 .bf16)
    (x4 : Vec Ideal S1x128 .f32) (x5 : Vec Ideal S128x128 .bf16) (x6 : Vec Ideal S1x128 .f32) (n : Fin 4096) (e : Fin 128) :
    msgM x0 x1 x2 x3 x4 x5 x6 (ix2 n e)
      = msg zeroWord (fun n k => x0 (ix3 (0 : Fin 1) n k)) (fun k e => x1 (ix2 k e)) (fun e => x2 (ix2 (0 : Fin 1) e))
          (fun k e => x3 (ix2 k e)) (fun e => x4 (ix2 (0 : Fin 1) e)) (fun k e => x5 (ix2 k e)) (fun e => x6 (ix2 (0 : Fin 1) e)) n e := by
  unfold msgM msg
  rw [layerM_apply]
  simp only [maximumf_apply, layerM_apply, projM_apply, shapeCast_1ab_ab_apply, shapeCast_self, broadcast_apply]
  rfl

/-- The body's stored value is the column sum of the messages, broadcast down the rows, less the messages. -/
theorem pay_eq (x0 : Vec Ideal S1x4096x256 .f32) (x1 : Vec Ideal S256x128 .bf16) (x2 : Vec Ideal S1x128 .f32) (x3 : Vec Ideal S128x128 .bf16)
    (x4 : Vec Ideal S1x128 .f32) (x5 : Vec Ideal S128x128 .bf16) (x6 : Vec Ideal S1x128 .f32) :
    k0_pay1 x0 x1 x2 x3 x4 x5 x6
      = shapeCast S1x4096x128 (subf (broadcastTo S4096x128 (shapeCast S1x128
          (multiReduction .add [0] S128 (msgM x0 x1 x2 x3 x4 x5 x6) 0x00000000#32 Facts₀.reduces_S4096x128_S128 (.inl rfl) rfl)
          Facts₀.shapeCasts_S128_S1x128) Facts₀.broadcasts_S1x128_S4096x128) (msgM x0 x1 x2 x3 x4 x5 x6))
          Facts₀.shapeCasts_S4096x128_S1x4096x128 := rfl

/-- The column of feature `e` summed over the rows. -/
theorem colsum_apply (M : FVec Ideal S4096x128 .f32) (e : Fin 128) :
    multiReduction .add [0] S128 M 0x00000000#32 Facts₀.reduces_S4096x128_S128 (.inl rfl) rfl (ix1 e) = ∑ n : Fin 4096, M (ix2 n e) := by
  refine (Ideal.multiReduction_add_single M 0x00000000#32 Facts₀.reduces_S4096x128_S128 (.inl rfl) rfl (ix1 e)).trans ?_
  refine Finset.sum_congr rfl fun n _ => congrArg M ?_
  exact funext fun a => Fin.ext (by match a with | ⟨0, _⟩ => rfl | ⟨1, _⟩ => rfl)

/-- The body's stored value at (unit, row, feature). -/
theorem pay_apply (x0 : Vec Ideal S1x4096x256 .f32) (x1 : Vec Ideal S256x128 .bf16) (x2 : Vec Ideal S1x128 .f32) (x3 : Vec Ideal S128x128 .bf16)
    (x4 : Vec Ideal S1x128 .f32) (x5 : Vec Ideal S128x128 .bf16) (x6 : Vec Ideal S1x128 .f32) (u : Fin 1) (n : Fin 4096) (e : Fin 128) :
    k0_pay1 x0 x1 x2 x3 x4 x5 x6 (ix3 u n e)
      = others zeroWord (fun n k => x0 (ix3 (0 : Fin 1) n k)) (fun k e => x1 (ix2 k e)) (fun e => x2 (ix2 (0 : Fin 1) e))
          (fun k e => x3 (ix2 k e)) (fun e => x4 (ix2 (0 : Fin 1) e)) (fun k e => x5 (ix2 k e)) (fun e => x6 (ix2 (0 : Fin 1) e)) n e := by
  rw [pay_eq, shapeCast_ab_1ab_apply, subf_apply, broadcastTo_1b_ab_apply, shapeCast_a_1a_apply, colsum_apply]
  unfold others
  simp only [msgM_apply]

end Cert.LeaveOneOut.Body

end
-- ==== Proof.KernelValue.lean ====
/-
  The kernel's result array is the specification of its argument arrays.

  The launch has sixteen grid points, one per batch entry.  At point t the input window holds batch
  entry t of the input, the six small windows hold the whole weight matrices (their format changed by
  the host, which is the identity on extended reals) and the biases (reshaped by the host from [128] to
  [1, 128]), and the body's stored block is written back as batch entry t of the result.  The
  sixteen written blocks tile the result array.
-/
import proofs.«101417_j31619549233246_1_alg».proof.Proof.Gen.KernelIdeal.Value
import proofs.«101417_j31619549233246_1_alg».proof.Proof.BodyIsSpec

set_option maxRecDepth 16384

noncomputable section

namespace Cert.LeaveOneOut.Kernel

open Cert.KernelIdeal Cert.KernelIdeal.Gen Idealize.ShloMosaic Idealize.ShloMosaic.TcCoe Idealize.ShloMosaic.ValueIdx
open Idealize.SL.Sem Cert.LeaveOneOut
open Idealize.ShloMosaic.Pipeline (Dat)

variable (m : (ℓ : Loc nD τ sig) → Buf (Elt Ideal) ℓ) (ρ : Dev nD → PrngReg)

/-! ### The arrays the host writes before the region -/

/-- The projection weights after the host's change of format: the argument itself. -/
theorem V_wproj (c : Dev nD) : (V m c main_v3 : S256x128.Idx → EReal) = m ((c : Thread nD τ).loc main_arg1) := by
  unfold V; after_results; rfl
/-- The first layer's weights after the host's change of format: the argument itself. -/
theorem V_w1 (c : Dev nD) : (V m c main_v4 : S128x128.Idx → EReal) = m ((c : Thread nD τ).loc main_arg3) := by
  unfold V; after_results; rfl
/-- The second layer's weights after the host's change of format: the argument itself. -/
theorem V_w2 (c : Dev nD) : (V m c main_v5 : S128x128.Idx → EReal) = m ((c : Thread nD τ).loc main_arg5) := by
  unfold V; after_results; rfl

/-- The projection bias after the host's reshape to one row, read at its feature. -/
theorem V_bproj (c : Dev nD) (u : Fin 1) (e : Fin 128) :
    (V m c main_v0 : S1x128.Idx → EReal) (ix2 u e) = (m ((c : Thread nD τ).loc main_arg2) : S128.Idx → EReal) (ix1 e) := by
  have h : (V m c main_v0 : S1x128.Idx → EReal) = shapeCast S1x128 (m ((c : Thread nD τ).loc main_arg2) : S128.Idx → EReal) Facts₀.shapeCasts_S128_S1x128 := by
    unfold V; after_results; rfl
  rw [h, shapeCast_a_1a_apply]
/-- The first layer's bias after the host's reshape to one row, read at its feature. -/
theorem V_b1 (c : Dev nD) (u : Fin 1) (e : Fin 128) :
    (V m c main_v1 : S1x128.Idx → EReal) (ix2 u e) = (m ((c : Thread nD τ).loc main_arg4) : S128.Idx → EReal) (ix1 e) := by
  have h : (V m c main_v1 : S1x128.Idx → EReal) = shapeCast S1x128 (m ((c : Thread nD τ).loc main_arg4) : S128.Idx → EReal) Facts₀.shapeCasts_S128_S1x128 := by
    unfold V; after_results; rfl
  rw [h, shapeCast_a_1a_apply]
/-- The second layer's bias after the host's reshape to one row, read at its feature. -/
theorem V_b2 (c : Dev nD) (u : Fin 1) (e : Fin 128) :
    (V m c main_v2 : S1x128.Idx → EReal) (ix2 u e) = (m ((c : Thread nD τ).loc main_arg6) : S128.Idx → EReal) (ix1 e) := by
  have h : (V m c main_v2 : S1x128.Idx → EReal) = shapeCast S1x128 (m ((c : Thread nD τ).loc main_arg6) : S128.Idx → EReal) Facts₀.shapeCasts_S128_S1x128 := by
    unfold V; after_results; rfl
  rw [h, shapeCast_a_1a_apply]

/-! ### The printed index maps over the sixteen points -/

/-- The input and the result move one batch entry per point; the small windows stay at block (0, 0). -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ### Each window's block at a point, read at coordinates -/

/-- The input window's block at point t is batch entry t of the input. -/
theorem xblk_apply (c : Dev nD) (t : Fin cfg0.N) (b : Fin 16) (hb : b.val = t.val) (n : Fin 4096) (k : Fin 256) :
    (iblk m c 0 t : Vec Ideal S1x4096x256 .f32) (ix3 (0 : Fin 1) n k)
      = (m ((c : Thread nD τ).loc main_arg0) : S16x4096x256.Idx → EReal) (ix3 b n k) := by
  obtain ⟨e0, e1, e2, -⟩ := idx_facts t
  unfold iblk
  rw [View.read_apply]
  show V m c main_arg0 _ = _
  rw [V_main_arg0 m c]
  congr 1
  funext a
  apply Fin.ext
  match a with
  | ⟨0, _⟩ => show win0_0.index t (0 : Fin 3) * 1 + 1 * 0 = b.val; omega
  | ⟨1, _⟩ => show win0_0.index t (1 : Fin 3) * 4096 + 1 * n.val = n.val; omega
  | ⟨2, _⟩ => show win0_0.index t (2 : Fin 3) * 256 + 1 * k.val = k.val; omega

/-- The projection-weight window holds the whole [256, 128] matrix at every point. -/
theorem wprojblk_apply (c : Dev nD) (t : Fin cfg0.N) (k : Fin 256) (e : Fin 128) :
    (iblk m c 1 t : Vec Ideal S256x128 .bf16) (ix2 k e) = (m ((c : Thread nD τ).loc main_arg1) : S256x128.Idx → EReal) (ix2 k e) := by
  obtain ⟨-, -, -, -, -, -, f0, f1, -⟩ := idx_facts t
  unfold iblk
  rw [View.read_apply]
  show (V m c main_v3 : S256x128.Idx → EReal) _ = _
  rw [V_wproj m c]
  congr 1
  funext a
  apply Fin.ext
  match a with
  | ⟨0, _⟩ => show win0_1.index t (0 : Fin 2) * 256 + 1 * k.val = k.val; omega
  | ⟨1, _⟩ => show win0_1.index t (1 : Fin 2) * 128 + 1 * e.val = e.val; omega

/-- The projection-bias window holds the bias as one row at every point. -/
theorem bprojblk_apply (c : Dev nD) (t : Fin cfg0.N) (e : Fin 128) :
    (iblk m c 2 t : Vec Ideal S1x128 .f32) (ix2 (0 : Fin 1) e) = (m ((c : Thread nD τ).loc main_arg2) : S128.Idx → EReal) (ix1 e) := by
  obtain ⟨-, -, -, -, -, -, -, -, f0, f1, -⟩ := idx_facts t
  unfold iblk
  rw [View.read_apply]
  show (V m c main_v0 : S1x128.Idx → EReal) _ = _
  refine Eq.trans (congrArg (V m c main_v0 : S1x128.Idx → EReal) ?_) (V_bproj m c (0 : Fin 1) e)
  funext a
  apply Fin.ext
  match a with
  | ⟨0, _⟩ => show win0_2.index t (0 : Fin 2) * 1 + 1 * 0 = 0; omega
  | ⟨1, _⟩ => show win0_2.index t (1 : Fin 2) * 128 + 1 * e.val = e.val; omega

/-- The first layer's weight window holds the whole [128, 128] matrix at every point. -/
theorem w1blk_apply (c : Dev nD) (t : Fin cfg0.N) (k : Fin 128) (e : Fin 128) :
    (iblk m c 3 t : Vec Ideal S128x128 .bf16) (ix2 k e) = (m ((c : Thread nD τ).loc main_arg3) : S128x128.Idx → EReal) (ix2 k e) := by
  obtain ⟨-, -, -, -, -, -, -, -, -, -, f0, f1, -⟩ := idx_facts t
  unfold iblk
  rw [View.read_apply]
  show (V m c main_v4 : S128x128.Idx → EReal) _ = _
  rw [V_w1 m c]
  congr 1
  funext a
  apply Fin.ext
  match a with
  | ⟨0, _⟩ => show win0_3.index t (0 : Fin 2) * 128 + 1 * k.val = k.val; omega
  | ⟨1, _⟩ => show win0_3.index t (1 : Fin 2) * 128 + 1 * e.val = e.val; omega

/-- The first layer's bias window holds the bias as one row at every point. -/
theorem b1blk_apply (c : Dev nD) (t : Fin cfg0.N) (e : Fin 128) :
    (iblk m c 4 t : Vec Ideal S1x128 .f32) (ix2 (0 : Fin 1) e) = (m ((c : Thread nD τ).loc main_arg4) : S128.Idx → EReal) (ix1 e) := by
  obtain ⟨-, -, -, -, -, -, -, -, -, -, -, -, f0, f1, -⟩ := idx_facts t
  unfold iblk
  rw [View.read_apply]
  show (V m c main_v1 : S1x128.Idx → EReal) _ = _
  refine Eq.trans (congrArg (V m c main_v1 : S1x128.Idx → EReal) ?_) (V_b1 m c (0 : Fin 1) e)
  funext a
  apply Fin.ext
  match a with
  | ⟨0, _⟩ => show win0_4.index t (0 : Fin 2) * 1 + 1 * 0 = 0; omega
  | ⟨1, _⟩ => show win0_4.index t (1 : Fin 2) * 128 + 1 * e.val = e.val; omega

/-- The second layer's weight window holds the whole [128, 128] matrix at every point. -/
theorem w2blk_apply (c : Dev nD) (t : Fin cfg0.N) (k : Fin 128) (e : Fin 128) :
    (iblk m c 5 t : Vec Ideal S128x128 .bf16) (ix2 k e) = (m ((c : Thread nD τ).loc main_arg5) : S128x128.Idx → EReal) (ix2 k e) := by
  obtain ⟨-, -, -, -, -, -, -, -, -, -, -, -, -, -, f0, f1, -⟩ := idx_facts t
  unfold iblk
  rw [View.read_apply]
  show (V m c main_v5 : S128x128.Idx → EReal) _ = _
  rw [V_w2 m c]
  congr 1
  funext a
  apply Fin.ext
  match a with
  | ⟨0, _⟩ => show win0_5.index t (0 : Fin 2) * 128 + 1 * k.val = k.val; omega
  | ⟨1, _⟩ => show win0_5.index t (1 : Fin 2) * 128 + 1 * e.val = e.val; omega

/-- The second layer's bias window holds the bias as one row at every point. -/
theorem b2blk_apply (c : Dev nD) (t : Fin cfg0.N) (e : Fin 128) :
    (iblk m c 6 t : Vec Ideal S1x128 .f32) (ix2 (0 : Fin 1) e) = (m ((c : Thread nD τ).loc main_arg6) : S128.Idx → EReal) (ix1 e) := by
  obtain ⟨-, -, -, -, -, -, -, -, -, -, -, -, -, -, -, -, f0, f1⟩ := idx_facts t
  unfold iblk
  rw [View.read_apply]
  show (V m c main_v2 : S1x128.Idx → EReal) _ = _
  refine Eq.trans (congrArg (V m c main_v2 : S1x128.Idx → EReal) ?_) (V_b2 m c (0 : Fin 1) e)
  funext a
  apply Fin.ext
  match a with
  | ⟨0, _⟩ => show win0_6.index t (0 : Fin 2) * 1 + 1 * 0 = 0; omega
  | ⟨1, _⟩ => show win0_6.index t (1 : Fin 2) * 128 + 1 * e.val = e.val; omega

/-! ### What a point writes back -/

/-- Rows, weights and biases that agree coordinate by coordinate give the same result. -/
theorem others_congr {z : EReal} {x x' : Fin 4096 → Fin 256 → EReal} {wp wp' : Fin 256 → Fin 128 → EReal} {bp bp' : Fin 128 → EReal}
    {w1 w1' : Fin 128 → Fin 128 → EReal} {b1 b1' : Fin 128 → EReal} {w2 w2' : Fin 128 → Fin 128 → EReal} {b2 b2' : Fin 128 → EReal}
    (hx : ∀ n k, x n k = x' n k) (hwp : ∀ k e, wp k e = wp' k e) (hbp : ∀ e, bp e = bp' e) (hw1 : ∀ k e, w1 k e = w1' k e)
    (hb1 : ∀ e, b1 e = b1' e) (hw2 : ∀ k e, w2 k e = w2' k e) (hb2 : ∀ e, b2 e = b2' e) (n : Fin 4096) (e : Fin 128) :
    others z x wp bp w1 b1 w2 b2 n e = others z x' wp' bp' w1' b1' w2' b2' n e := by
  obtain rfl : x = x' := funext fun n => funext fun k => hx n k
  obtain rfl : wp = wp' := funext fun k => funext fun e => hwp k e
  obtain rfl : bp = bp' := funext hbp
  obtain rfl : w1 = w1' := funext fun k => funext fun e => hw1 k e
  obtain rfl : b1 = b1' := funext hb1
  obtain rfl : w2 = w2' := funext fun k => funext fun e => hw2 k e
  obtain rfl : b2 = b2' := funext hb2
  rfl

/-- The result array of the launch memory on core c. -/
def resultOf (c : Dev nD) : S16x4096x128.Idx → EReal :=
  resultArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The body's stored value at point t, at (unit, row, feature), is the result at (batch entry t, row, feature). -/
theorem pay_point (c : Dev nD) (t : Fin cfg0.N) (b : Fin 16) (hb : b.val = t.val) (u : Fin 1) (n : Fin 4096) (e : Fin 128) :
    k0_pay1 (F := Ideal) (iblk m c 0 t) (iblk m c 1 t) (iblk m c 2 t) (iblk m c 3 t) (iblk m c 4 t) (iblk m c 5 t) (iblk m c 6 t) (ix3 u n e)
      = resultOf m c (ix3 b n e) := by
  refine (Body.pay_apply (iblk m c 0 t) (iblk m c 1 t) (iblk m c 2 t) (iblk m c 3 t) (iblk m c 4 t) (iblk m c 5 t) (iblk m c 6 t) u n e).trans ?_
  unfold resultOf
  rw [resultArr_ix3]
  unfold result
  exact others_congr (fun n k => xblk_apply m c t b hb n k) (fun k e => wprojblk_apply m c t k e) (fun e => bprojblk_apply m c t e)
    (fun k e => w1blk_apply m c t k e) (fun e => b1blk_apply m c t e) (fun k e => w2blk_apply m c t k e) (fun e => b2blk_apply m c t e) n e

theorem hz3 : (![0, 0, 0] : Fin 3 → Nat) = fun _ => 0 := funext fun a => by fin_cases a <;> rfl
theorem hz2 : (![0, 0] : Fin 2 → Nat) = fun _ => 0 := funext fun a => by fin_cases a <;> rfl

/-- What point t writes back is batch entry t of the result. -/
theorem flushed_eq (c : Dev nD) (t : Fin cfg0.N) :
    (dats m 0 c).flushed 7 t = ((cfg0.win 7).blk t).view.read (Elt Ideal) (resultOf m c) := by
  obtain ⟨-, -, -, g0, g1, g2, -⟩ := idx_facts t
  have hN : cfg0.N = 16 := N_0
  rw [Value.flushed7]
  unfold out0_7
  rw [View.canon_unit_zero hz3]
  simp only [View.ld_unit_zero (S := S1x4096x256) hz3, View.ld_unit_zero (S := S256x128) hz2, View.ld_unit_zero (S := S1x128) hz2,
    View.ld_unit_zero (S := S128x128) hz2]
  funext j
  have hj0 : (j 0).val < 1 := (j 0).isLt
  have hj1 : (j 1).val < 4096 := (j 1).isLt
  have hj2 : (j 2).val < 128 := (j 2).isLt
  have ht : t.val < 16 := by have := t.isLt; omega
  show k0_pay1 (F := Ideal) (iblk m c 0 t) (iblk m c 1 t) (iblk m c 2 t) (iblk m c 3 t) (iblk m c 4 t) (iblk m c 5 t) (iblk m c 6 t)
      ((cfg0.win 7).xinj (grid0.coords t) j) = resultOf m c (((cfg0.win 7).blk t).view.emb j)
  have hin : (cfg0.win 7).xinj (grid0.coords t) j = ix3 (⟨(j 0).val, hj0⟩ : Fin 1) (⟨(j 1).val, hj1⟩ : Fin 4096) (⟨(j 2).val, hj2⟩ : Fin 128) :=
    funext fun a => Fin.ext (by match a with | ⟨0, _⟩ => rfl | ⟨1, _⟩ => rfl | ⟨2, _⟩ => rfl)
  have hemb : ((cfg0.win 7).blk t).view.emb j = ix3 (⟨t.val, ht⟩ : Fin 16) (⟨(j 1).val, hj1⟩ : Fin 4096) (⟨(j 2).val, hj2⟩ : Fin 128) := by
    funext a
    apply Fin.ext
    match a with
    | ⟨0, _⟩ => show win0_7.index t (0 : Fin 3) * 1 + 1 * (j 0).val = t.val; omega
    | ⟨1, _⟩ => show win0_7.index t (1 : Fin 3) * 4096 + 1 * (j 1).val = (j 1).val; omega
    | ⟨2, _⟩ => show win0_7.index t (2 : Fin 3) * 128 + 1 * (j 2).val = (j 2).val; omega
  rw [hin, hemb]
  exact pay_point m c t ⟨t.val, ht⟩ rfl _ _ _

/-! ### The written blocks tile the result -/

/-- An index of the result is in point t's block iff each coordinate is in the block's range on its axis. -/
theorem mem_blk (t : Fin cfg0.N) (i : S16x4096x128.Idx) :
    i ∈ ((cfg0.win 7).blk t).view.set ↔ ∀ a : Fin 3, win0_7.index t a * S1x4096x128.size a ≤ (i a).val ∧ (i a).val < win0_7.index t a * S1x4096x128.size a + S1x4096x128.size a := by
  show i ∈ ((View.whole main_v6).slice (win0_7.rect t)).set ↔ _
  rw [View.set_slice_whole, Rect.mem_set_unit]
  exact Iff.rfl

/-- Every index of the result lies in the block of the point numbered by its batch coordinate. -/
theorem cover (i : S16x4096x128.Idx) : ∃ t : Fin cfg0.N, (cfg0.win 7).flush t = true ∧ i ∈ ((cfg0.win 7).blk t).view.set := by
  have hN : cfg0.N = 16 := N_0
  have hi0 : (i 0).val < 16 := (i 0).isLt
  have hi1 : (i 1).val < 4096 := (i 1).isLt
  have hi2 : (i 2).val < 128 := (i 2).isLt
  refine ⟨⟨(i 0).val, by omega⟩, flush0_7 _, ?_⟩
  obtain ⟨-, -, -, g0, g1, g2, -⟩ := idx_facts ⟨(i 0).val, by omega⟩
  rw [mem_blk]
  intro a
  match a with
  | ⟨0, _⟩ => show win0_7.index _ (0 : Fin 3) * 1 ≤ (i 0).val ∧ (i 0).val < win0_7.index _ (0 : Fin 3) * 1 + 1; simp only [] at g0; omega
  | ⟨1, _⟩ => show win0_7.index _ (1 : Fin 3) * 4096 ≤ (i 1).val ∧ (i 1).val < win0_7.index _ (1 : Fin 3) * 4096 + 4096; omega
  | ⟨2, _⟩ => show win0_7.index _ (2 : Fin 3) * 128 ≤ (i 2).val ∧ (i 2).val < win0_7.index _ (2 : Fin 3) * 128 + 128; omega

/-- The result array after the run. -/
theorem final (c : Dev nD) : (dats m 0 c).arrAt 7 cfg0.N = resultOf m c :=
  (dats m 0 c).arrAt_eq_of_cover 7 (resultOf m c) (fun t _ => flushed_eq m c t) cover

/-- The kernel's run: the result array at the specification of the launch memory, the arguments unchanged. -/
theorem run : θ_run defs (onTc (τ := τ) (main (F := Ideal))) ⟨m, fun _ => 0, ρ⟩ fun r => ∀ c : Dev nD,
      r.2.mem ((c : Thread nD τ).loc main_v6) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.LeaveOneOut.Kernel

end
-- ==== Proof.lean ====
/-
  A message-passing layer with a leave-one-out sum, as one pipelined kernel against its array reference.

  For each of 16 batch entries, each of 4096 rows n and each of 128 features e, both programs compute

      out n e = (Σ over rows n' of msg n' e) − msg n e,
      msg     = (max ((x · Wp + bp) · W1 + b1) 0) · W2 + b2,

  the products being sums over the contracted coordinate.  The kernel takes one batch entry per grid
  point, multiplies on the matrix unit from a narrower float format and sums the rows inside the body; the
  reference contracts whole arrays and reduces along the row axis.  Over the extended reals a change of
  float format is the identity and a finite sum does not depend on the order of its terms, so the two are
  the same function of the argument arrays, coordinate by coordinate: no law beyond commutativity and
  associativity of addition is used, and the precondition (finite inputs) is never opened.

  The pieces: Proof/Spec.lean states that function once; Proof/RefIsSpec.lean reads the reference's
  operations as it; Proof/BodyIsSpec.lean reads the kernel body's stored block as it over the loaded
  blocks; Proof/KernelValue.lean carries it from the sixteen written blocks to the whole result array.
  The idealization rewrote nothing, so its conjunct is trivial.
-/
import proofs.«101417_j31619549233246_1_alg».proof.Defs
import proofs.«101417_j31619549233246_1_alg».proof.Proof.Gen.Kernel
import proofs.«101417_j31619549233246_1_alg».proof.Proof.Gen.Kernel.Skeleton
import proofs.«101417_j31619549233246_1_alg».proof.Proof.Gen.Kernel.Launch
import proofs.«101417_j31619549233246_1_alg».proof.Proof.Gen.Kernel.Points
import proofs.«101417_j31619549233246_1_alg».proof.Proof.Gen.Kernel.Frame
import proofs.«101417_j31619549233246_1_alg».proof.Proof.Gen.KernelIdeal
import proofs.«101417_j31619549233246_1_alg».proof.Proof.Gen.KernelIdeal.Skeleton
import proofs.«101417_j31619549233246_1_alg».proof.Proof.Gen.KernelIdeal.Launch
import proofs.«101417_j31619549233246_1_alg».proof.Proof.Gen.KernelIdeal.Points
import proofs.«101417_j31619549233246_1_alg».proof.Proof.Gen.KernelIdeal.Frame
import proofs.«101417_j31619549233246_1_alg».proof.Proof.Gen.ReferenceIdeal
import proofs.«101417_j31619549233246_1_alg».proof.Proof.Gen.Pre_finite_inputs
import proofs.«101417_j31619549233246_1_alg».proof.Proof.Gen.KernelIdeal.Value
import proofs.«101417_j31619549233246_1_alg».proof.Proof.Gen.ReferenceIdeal.Run
import proofs.«101417_j31619549233246_1_alg».proof.Proof.Gen.ReferenceIdeal.Read
import proofs.«101417_j31619549233246_1_alg».proof.Proof.RefIsSpec
import proofs.«101417_j31619549233246_1_alg».proof.Proof.KernelValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the seven arguments both programs end with the specification's array
    of those arguments as their result. -/
theorem algebraic : Cert.algebraic_KernelIdeal_ReferenceIdeal := by
  intro m ρ m' ρ' _ hagree
  refine ⟨fun c => Cert.LeaveOneOut.Kernel.resultOf m c, Cert.LeaveOneOut.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v16_eq, Cert.LeaveOneOut.Ref.result_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
